-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1600 : Shape := ⟨3, ![64, 1024, 1600]⟩
abbrev S100x4x1600 : Shape := ⟨3, ![100, 4, 1600]⟩
abbrev S2x100 : Shape := ⟨2, ![2, 100]⟩
abbrev S_ : Shape := ⟨0, ![]⟩

class Facts : Prop where
  bcast_S_S64x1024x1600 : S_.BroadcastsInDim S64x1024x1600 (![] : Fin 0 → Fin S64x1024x1600.rank)
  reducesTo_S64x1024x1600_S_d0_1_2 : S64x1024x1600.ReducesTo [0, 1, 2] S_
  h_S_ : 0 < S_.numel
  bcast_S_S100x4x1600 : S_.BroadcastsInDim S100x4x1600 (![] : Fin 0 → Fin S100x4x1600.rank)
  reducesTo_S100x4x1600_S_d0_1_2 : S100x4x1600.ReducesTo [0, 1, 2] S_
  bcast_S_S2x100 : S_.BroadcastsInDim S2x100 (![] : Fin 0 → Fin S2x100.rank)
  reducesTo_S2x100_S_d0_1 : S2x100.ReducesTo [0, 1] S_

variable [Facts]

def fn {F : FTy → Type} [FloatOps F] (main_arg0 : FVec F S64x1024x1600 .f32) (main_arg1 : FVec F S100x4x1600 .f32) (main_arg2 : FVec F S2x100 .f32) : IVec S_ 1 :=
  let main_v0 : FVec F S64x1024x1600 .f32 := Host.absf main_arg0
  let main_cst : FVec F S_ .f32 := constant S_ .f32 0x7F800000#32
  let main_v1 : FVec F S64x1024x1600 .f32 := broadcastInDim S64x1024x1600 ![] bcast_S_S64x1024x1600 main_cst
  let main_v2 : IVec S64x1024x1600 1 := cmpf .olt main_v0 main_v1
  let main_c : IVec S_ 1 := constantI S_ 1 1#1
  let main_v3 : IVec S_ 1 := (fun x v => Host.reduce IntOp.andi x v reducesTo_S64x1024x1600_S_d0_1_2 h_S_) main_v2 main_c
  let main_v4 : FVec F S100x4x1600 .f32 := Host.absf main_arg1
  let main_cst_0 : FVec F S_ .f32 := constant S_ .f32 0x7F800000#32
  let main_v5 : FVec F S100x4x1600 .f32 := broadcastInDim S100x4x1600 ![] bcast_S_S100x4x1600 main_cst_0
  let main_v6 : IVec S100x4x1600 1 := cmpf .olt main_v4 main_v5
  let main_c_1 : IVec S_ 1 := constantI S_ 1 1#1
  let main_v7 : IVec S_ 1 := (fun x v => Host.reduce IntOp.andi x v reducesTo_S100x4x1600_S_d0_1_2 h_S_) main_v6 main_c_1
  let main_v8 : IVec S_ 1 := andi main_v3 main_v7
  let main_v9 : FVec F S2x100 .f32 := Host.absf main_arg2
  let main_cst_2 : FVec F S_ .f32 := constant S_ .f32 0x7F800000#32
  let main_v10 : FVec F S2x100 .f32 := broadcastInDim S2x100 ![] bcast_S_S2x100 main_cst_2
  let main_v11 : IVec S2x100 1 := cmpf .olt main_v9 main_v10
  let main_c_3 : IVec S_ 1 := constantI S_ 1 1#1
  let main_v12 : IVec S_ 1 := (fun x v => Host.reduce IntOp.andi x v reducesTo_S2x100_S_d0_1 h_S_) main_v11 main_c_3
  let main_v13 : IVec S_ 1 := andi main_v8 main_v12
  main_v13
-- ==== Kernel.lean ====
abbrev S64x1024x1600 : Shape := ⟨3, ![64, 1024, 1600]⟩
abbrev S100x4x1600 : Shape := ⟨3, ![100, 4, 1600]⟩
abbrev S2x100 : Shape := ⟨2, ![2, 100]⟩
abbrev S64x100x4x1024 : Shape := ⟨4, ![64, 100, 4, 1024]⟩
abbrev S64x100x1 : Shape := ⟨3, ![64, 100, 1]⟩
abbrev S1x512x1600 : Shape := ⟨3, ![1, 512, 1600]⟩
abbrev S1x100x4x512 : Shape := ⟨4, ![1, 100, 4, 512]⟩
abbrev S1x100x1 : Shape := ⟨3, ![1, 100, 1]⟩
abbrev S100x4 : Shape := ⟨2, ![100, 4]⟩
abbrev S512x1600 : Shape := ⟨2, ![512, 1600]⟩
abbrev S512 : Shape := ⟨1, ![512]⟩
abbrev S400x1600 : Shape := ⟨2, ![400, 1600]⟩
abbrev S400x512 : Shape := ⟨2, ![400, 512]⟩
abbrev S100x4x512 : Shape := ⟨3, ![100, 4, 512]⟩
abbrev S100x4x1 : Shape := ⟨3, ![100, 4, 1]⟩
abbrev S1x1x512 : Shape := ⟨3, ![1, 1, 512]⟩
abbrev S100 : Shape := ⟨1, ![100]⟩
abbrev S100x1 : Shape := ⟨2, ![100, 1]⟩
abbrev S64x100x1024x4 : Shape := ⟨4, ![64, 100, 1024, 4]⟩
abbrev S64x100 : Shape := ⟨2, ![64, 100]⟩
abbrev S100x2 : Shape := ⟨2, ![100, 2]⟩
abbrev S64x2 : Shape := ⟨2, ![64, 2]⟩

abbrev nBuf : Space → Nat
  | .hbm => 9
  | .vmem => 8
  | .smem => 0
  | _ => 0

abbrev bufTy : (tb : Table) → Fin (tcTables nBuf tb) → BufTy
  | .hbm, ⟨0, _⟩ => ⟨S64x1024x1600, .f32⟩
  | .hbm, ⟨1, _⟩ => ⟨S100x4x1600, .f32⟩
  | .hbm, ⟨2, _⟩ => ⟨S2x100, .f32⟩
  | .hbm, ⟨3, _⟩ => ⟨S64x100x4x1024, .f32⟩
  | .hbm, ⟨4, _⟩ => ⟨S64x100x1, .f32⟩
  | .hbm, ⟨5, _⟩ => ⟨S64x100x1024x4, .f32⟩
  | .hbm, ⟨6, _⟩ => ⟨S64x100, .f32⟩
  | .hbm, ⟨7, _⟩ => ⟨S100x2, .f32⟩
  | .hbm, ⟨8, _⟩ => ⟨S64x2, .f32⟩
  | .local _ .vmem, ⟨0, _⟩ => ⟨S1x512x1600, .f32⟩
  | .local _ .vmem, ⟨1, _⟩ => ⟨S1x512x1600, .f32⟩
  | .local _ .vmem, ⟨2, _⟩ => ⟨S100x4x1600, .f32⟩
  | .local _ .vmem, ⟨3, _⟩ => ⟨S1x100x4x512, .f32⟩
  | .local _ .vmem, ⟨4, _⟩ => ⟨S1x100x4x512, .f32⟩
  | .local _ .vmem, ⟨5, _⟩ => ⟨S1x100x1, .f32⟩
  | .local _ .vmem, ⟨6, _⟩ => ⟨S1x100x1, .f32⟩
  | .local _ .vmem, ⟨7, _⟩ => ⟨S100x4, .f32⟩
  | _, _ => ⟨S64x1024x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 2], ![false, false]⟩

def k0_cond3 (i : grid0.Coords) : BitVec 1 :=
  let arg1 : BitVec 32 := BitVec.ofNat 32 (i 1).val
  let c1_i32 : BitVec 32 := 1#32
  let v33 : BitVec 1 := Scalar.cmpi .eq arg1 c1_i32
  let v34 : BitVec 32 := Scalar.extui v33
  let c0_i32_17 : BitVec 32 := 0#32
  let v35 : BitVec 1 := Scalar.cmpi .ne v34 c0_i32_17
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S100x4x1600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x100x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x100x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512x1600_S1x512x1600_0_0_0 : ∀ a, (![0, 0, 0] : Fin 3 → Nat) a + S1x512x1600.size a ≤ S1x512x1600.size a
  h_S1x512x1600 : 0 < S1x512x1600.numel
  shapeCasts_S1x512x1600_S512x1600 : S1x512x1600.ShapeCasts S512x1600
  inb_S100x4x1600_S100x4x1600_0_0_0 : ∀ a, (![0, 0, 0] : Fin 3 → Nat) a + S100x4x1600.size a ≤ S100x4x1600.size a
  h_S100x4x1600 : 0 < S100x4x1600.numel
  reduces_S512x1600_S512 : S512x1600.Reduces [1] S512
  reduces_S100x4x1600_S100x4 : S100x4x1600.Reduces [2] S100x4
  shapeCasts_S100x4x1600_S400x1600 : S100x4x1600.ShapeCasts S400x1600
  bitsLt_bf16_f32 : FTy.bits .bf16 < FTy.bits .f32
  shapeCasts_S400x512_S100x4x512 : S400x512.ShapeCasts S100x4x512
  shapeCasts_S100x4_S100x4x1 : S100x4.ShapeCasts S100x4x1
  shapeCasts_S512_S1x1x512 : S512.ShapeCasts S1x1x512
  broadcasts_S100x4x1_S100x4x512 : S100x4x1.Broadcasts S100x4x512
  broadcasts_S1x1x512_S100x4x512 : S1x1x512.Broadcasts S100x4x512
  inb_S1x100x4x512_S1x100x4x512_0_0_0_0 : ∀ a, (![0, 0, 0, 0] : Fin 4 → Nat) a + S1x100x4x512.size a ≤ S1x100x4x512.size a
  h_S1x100x4x512 : 0 < S1x100x4x512.numel
  shapeCasts_S1x100x4x512_S100x4x512 : S1x100x4x512.ShapeCasts S100x4x512
  shapeCasts_S100x4x512_S1x100x4x512 : S100x4x512.ShapeCasts S1x100x4x512
  reduces_S100x4x512_S100x4 : S100x4x512.Reduces [2] S100x4
  inb_S100x4_S100x4_0_0 : ∀ a, (![0, 0] : Fin 2 → Nat) a + S100x4.size a ≤ S100x4.size a
  h_S100x4 : 0 < S100x4.numel
  shapeCasts_S100x4_S100x4 : S100x4.ShapeCasts S100x4
  reduces_S100x4_S100 : S100x4.Reduces [1] S100
  shapeCasts_S100_S100x1 : S100.ShapeCasts S100x1
  inb_S1x100x1_S1x100x1_0_0_0 : ∀ a, (![0, 0, 0] : Fin 3 → Nat) a + S1x100x1.size a ≤ S1x100x1.size a
  h_S1x100x1 : 0 < S1x100x1.numel
  shapeCasts_S1x100x1_S100x1 : S1x100x1.ShapeCasts S100x1
  shapeCasts_S100x1_S1x100x1 : S100x1.ShapeCasts S1x100x1
  transposes_S64x100x4x1024_S64x100x1024x4_0_1_3_2 : S64x100x4x1024.Transposes [0, 1, 3, 2] S64x100x1024x4
  shapeCasts_S64x100x1_S64x100 : S64x100x1.ShapeCasts S64x100
  transposes_S2x100_S100x2_1_0 : S2x100.Transposes [1, 0] S100x2
  dot_S400x1600_S512x1600_S400x512_1_1_0_0_n_n_wf : DotDims.WF S400x1600 S512x1600 S400x512 [1] [1] [0] [0] [] []
  dot_S64x100_S100x2_S64x2_1_0_0_1_n_n_wf : DotDims.WF S64x100 S100x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1600.size a ≤ S64x1024x1600.size a
  hwx0_0 : ∀ i : grid0.Coords, EltTy.bits .f32 = 32 ∨ (Rect.block (s := S64x1024x1600) S1x512x1600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x4x1600.size a ≤ S100x4x1600.size a
  hwx0_1 : ∀ i : grid0.Coords, EltTy.bits .f32 = 32 ∨ (Rect.block (s := S100x4x1600) S100x4x1600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x4x512.size a ≤ S64x100x4x1024.size a
  hwx0_2 : ∀ i : grid0.Coords, EltTy.bits .f32 = 32 ∨ (Rect.block (s := S64x100x4x1024) S1x100x4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x100x1.size a ≤ S64x100x1.size a
  hwx0_3 : ∀ i : grid0.Coords, EltTy.bits .f32 = 32 ∨ (Rect.block (s := S64x100x1) S1x100x1.size (cc0_transform_3 i) (hinb0_3 i)).WholeWords (EltTy.packing .f32)

variable [Facts₀]

def dot_S400x1600_S512x1600_S400x512_1_1_0_0_n_n : DotDims S400x1600 S512x1600 S400x512 where
  lhsContracting := [1]
  rhsContracting := [1]
  lhsNonContracting := [0]
  rhsNonContracting := [0]
  lhsBatch := []
  rhsBatch := []
  wf := dot_S400x1600_S512x1600_S400x512_1_1_0_0_n_n_wf
def dot_S64x100_S100x2_S64x2_1_0_0_1_n_n : DotDims S64x100 S100x2 S64x2 where
  lhsContracting := [1]
  rhsContracting := [0]
  lhsNonContracting := [0]
  rhsNonContracting := [1]
  lhsBatch := []
  rhsBatch := []
  wf := dot_S64x100_S100x2_S64x2_1_0_0_1_n_n_wf

abbrev win0_0 : Pipeline.Window sig grid0 :=
  Pipeline.Window.ofSpec (Memref.whole main_arg0) S1x512x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x4x1600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x100x4x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x100x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S64x1024x1600 : Shape := ⟨3, ![64, 1024, 1600]⟩
abbrev S100x4x1600 : Shape := ⟨3, ![100, 4, 1600]⟩
abbrev S2x100 : Shape := ⟨2, ![2, 100]⟩
abbrev S_ : Shape := ⟨0, ![]⟩
abbrev S64x1024 : Shape := ⟨2, ![64, 1024]⟩
abbrev S100x4 : Shape := ⟨2, ![100, 4]⟩
abbrev S100x4x64x1024 : Shape := ⟨4, ![100, 4, 64, 1024]⟩
abbrev S64x100x1024x4 : Shape := ⟨4, ![64, 100, 1024, 4]⟩
abbrev S64x1x1024x1 : Shape := ⟨4, ![64, 1, 1024, 1]⟩
abbrev S1x100x1x4 : Shape := ⟨4, ![1, 100, 1, 4]⟩
abbrev S64x100x4 : Shape := ⟨3, ![64, 100, 4]⟩
abbrev S64x100 : Shape := ⟨2, ![64, 100]⟩
abbrev S100x2 : Shape := ⟨2, ![100, 2]⟩
abbrev S64x2 : Shape := ⟨2, ![64, 2]⟩

abbrev nBuf : Space → Nat
  | .hbm => 31
  | .vmem => 0
  | .smem => 0
  | _ => 0

abbrev bufTy : (tb : Table) → Fin (tcTables nBuf tb) → BufTy
  | .hbm, ⟨0, _⟩ => ⟨S64x1024x1600, .f32⟩
  | .hbm, ⟨1, _⟩ => ⟨S100x4x1600, .f32⟩
  | .hbm, ⟨2, _⟩ => ⟨S2x100, .f32⟩
  | .hbm, ⟨3, _⟩ => ⟨S64x1024x1600, .f32⟩
  | .hbm, ⟨4, _⟩ => ⟨S_, .f32⟩
  | .hbm, ⟨5, _⟩ => ⟨S64x1024, .f32⟩
  | .hbm, ⟨6, _⟩ => ⟨S100x4x1600, .f32⟩
  | .hbm, ⟨7, _⟩ => ⟨S_, .f32⟩
  | .hbm, ⟨8, _⟩ => ⟨S100x4, .f32⟩
  | .hbm, ⟨9, _⟩ => ⟨S100x4x64x1024, .f32⟩
  | .hbm, ⟨10, _⟩ => ⟨S64x100x1024x4, .f32⟩
  | .hbm, ⟨11, _⟩ => ⟨S64x1x1024x1, .f32⟩
  | .hbm, ⟨12, _⟩ => ⟨S1x100x1x4, .f32⟩
  | .hbm, ⟨13, _⟩ => ⟨S64x100x1024x4, .f32⟩
  | .hbm, ⟨14, _⟩ => ⟨S64x100x1024x4, .f32⟩
  | .hbm, ⟨15, _⟩ => ⟨S64x100x1024x4, .f32⟩
  | .hbm, ⟨16, _⟩ => ⟨S_, .f32⟩
  | .hbm, ⟨17, _⟩ => ⟨S64x100x1024x4, .f32⟩
  | .hbm, ⟨18, _⟩ => ⟨S64x100x1024x4, .f32⟩
  | .hbm, ⟨19, _⟩ => ⟨S64x100x1024x4, .f32⟩
  | .hbm, ⟨20, _⟩ => ⟨S_, .f32⟩
  | .hbm, ⟨21, _⟩ => ⟨S64x100x1024x4, .f32⟩
  | .hbm, ⟨22, _⟩ => ⟨S64x100x1024x4, .f32⟩
  | .hbm, ⟨23, _⟩ => ⟨S64x100x1024x4, .f32⟩
  | .hbm, ⟨24, _⟩ => ⟨S_, .f32⟩
  | .hbm, ⟨25, _⟩ => ⟨S64x100x4, .f32⟩
  | .hbm, ⟨26, _⟩ => ⟨S64x100x4, .f32⟩
  | .hbm, ⟨27, _⟩ => ⟨S_, .f32⟩
  | .hbm, ⟨28, _⟩ => ⟨S64x100, .f32⟩
  | .hbm, ⟨29, _⟩ => ⟨S100x2, .f32⟩
  | .hbm, ⟨30, _⟩ => ⟨S64x2, .f32⟩
  | _, _ => ⟨S64x1024x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S64x1024x1600_S64x1024_d2 : S64x1024x1600.ReducesTo [2] S64x1024
  h_S_ : 0 < S_.numel
  reducesTo_S100x4x1600_S100x4_d2 : S100x4x1600.ReducesTo [2] S100x4
  transposes_S100x4x64x1024_S64x100x1024x4_2_0_3_1 : S100x4x64x1024.Transposes [2, 0, 3, 1] S64x100x1024x4
  bcast_S64x1024_S64x1x1024x1_0_2 : S64x1024.BroadcastsInDim S64x1x1024x1 (![0, 2] : Fin 2 → Fin S64x1x1024x1.rank)
  bcast_S100x4_S1x100x1x4_1_3 : S100x4.BroadcastsInDim S1x100x1x4 (![1, 3] : Fin 2 → Fin S1x100x1x4.rank)
  bcast_S64x1x1024x1_S64x100x1024x4_0_1_2_3 : S64x1x1024x1.BroadcastsInDim S64x100x1024x4 (![0, 1, 2, 3] : Fin 4 → Fin S64x100x1024x4.rank)
  bcast_S1x100x1x4_S64x100x1024x4_0_1_2_3 : S1x100x1x4.BroadcastsInDim S64x100x1024x4 (![0, 1, 2, 3] : Fin 4 → Fin S64x100x1024x4.rank)
  bcast_S_S64x100x1024x4 : S_.BroadcastsInDim S64x100x1024x4 (![] : Fin 0 → Fin S64x100x1024x4.rank)
  reducesTo_S64x100x1024x4_S64x100x4_d2 : S64x100x1024x4.ReducesTo [2] S64x100x4
  reducesTo_S64x100x4_S64x100_d2 : S64x100x4.ReducesTo [2] S64x100
  transposes_S2x100_S100x2_1_0 : S2x100.Transposes [1, 0] S100x2
  dot_S100x4x1600_S64x1024x1600_S100x4x64x1024_2_2_01_01_n_n_wf : DotDims.WF S100x4x1600 S64x1024x1600 S100x4x64x1024 [2] [2] [0, 1] [0, 1] [] []
  dot_S64x100_S100x2_S64x2_1_0_0_1_n_n_wf : DotDims.WF S64x100 S100x2 S64x2 [1] [0] [0] [1] [] []

variable [Facts₀]

def dot_S100x4x1600_S64x1024x1600_S100x4x64x1024_2_2_01_01_n_n : DotDims S100x4x1600 S64x1024x1600 S100x4x64x1024 where
  lhsContracting := [2]
  rhsContracting := [2]
  lhsNonContracting := [0, 1]
  rhsNonContracting := [0, 1]
  lhsBatch := []
  rhsBatch := []
  wf := dot_S100x4x1600_S64x1024x1600_S100x4x64x1024_2_2_01_01_n_n_wf
def dot_S64x100_S100x2_S64x2_1_0_0_1_n_n : DotDims S64x100 S100x2 S64x2 where
  lhsContracting := [1]
  rhsContracting := [0]
  lhsNonContracting := [0]
  rhsNonContracting := [1]
  lhsBatch := []
  rhsBatch := []
  wf := dot_S64x100_S100x2_S64x2_1_0_0_1_n_n_wf

class Facts : Prop extends Facts₀ where

variable [Facts]
-- ==== Proof.Pieces.lean ====
/-
  What each control case of the kernel body leaves in its output blocks and in the carried scratch, as the body's
  pure values of the blocks it loaded.

  At an even grid point (the first sequence tile of a batch row) the body stores the block of distances and resets
  the scratch to the block's minima. At an odd point (the second tile) it stores the block of distances, lowers the
  scratch to the minimum of what the first tile left and this block's minima, and writes the prototype distances
  computed from the scratch it has just stored.
-/
import proofs.«103343_j53102975648266_1_alg».proof.Proof.Gen.KernelIdeal.Frame
import Idealize.ShloMosaic.Lib.Pipeline.Value
import Idealize.ShloMosaic.Lib.Tactic

noncomputable section

namespace Cert.ProtoDist.Pieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First tile: the block of distances. -/
theorem dist_first (c : Dev nD) (i : grid0.Coords) (arg2 : Memref sig .tc .vmem S1x512x1600 .f32) (harg2 : arg2.IsWhole) (arg3 : Memref sig .tc .vmem S100x4x1600 .f32) (harg3 : arg3.IsWhole) (arg4 : Memref sig .tc .vmem S1x100x4x512 .f32) (harg4 : arg4.IsWhole) (arg5 : Memref sig .tc .vmem S1x100x1 .f32) (harg5 : arg5.IsWhole) (arg6 : Memref sig .tc .vmem S100x4 .f32) (harg6 : arg6.IsWhole) (hc0 : cond0_0 i) (hc1 : ¬cond0_1 i) (hc2 : ¬cond0_2 i)
    (x0 : Vec F S1x512x1600 .f32) (x1 : Vec F S100x4x1600 .f32) :
    out0_A_2 c i arg2 harg2 arg3 harg3 arg4 harg4 arg5 harg5 arg6 harg6 hc0 hc1 hc2 x0 x1 = k0_pay3 x0 x1 := by
  unfold out0_A_2
  rw [View.read_writes_eq_canon _ _ _ (cover0_A_2 c i arg2 harg2 arg3 harg3 arg4 harg4 arg5 harg5 arg6 harg6 hc0 hc1 hc2 x0 x1)]
  unfold kernelRun0_A
  dsimp only
  sl_unfold_words
  rw [View.canon_unit_zero hz4]
  simp only [View.readAt_eq_ld, harg2.read_unread, harg3.read_unread, View.ld_unit_zero (S := S1x512x1600) hz3, View.ld_unit_zero (S := S100x4x1600) hz3]

/-- First tile: the scratch is reset to the block's minima. -/
theorem scratch_first (c : Dev nD) (i : grid0.Coords) (arg2 : Memref sig .tc .vmem S1x512x1600 .f32) (harg2 : arg2.IsWhole) (arg3 : Memref sig .tc .vmem S100x4x1600 .f32) (harg3 : arg3.IsWhole) (arg4 : Memref sig .tc .vmem S1x100x4x512 .f32) (harg4 : arg4.IsWhole) (arg5 : Memref sig .tc .vmem S1x100x1 .f32) (harg5 : arg5.IsWhole) (arg6 : Memref sig .tc .vmem S100x4 .f32) (harg6 : arg6.IsWhole) (hc0 : cond0_0 i) (hc1 : ¬cond0_1 i) (hc2 : ¬cond0_2 i)
    (x0 : Vec F S1x512x1600 .f32) (x1 : Vec F S100x4x1600 .f32) :
    sout0_A_0 c i arg2 harg2 arg3 harg3 arg4 harg4 arg5 harg5 arg6 harg6 hc0 hc1 hc2 x0 x1 = k0_pay5 x0 x1 := by
  unfold sout0_A_0
  rw [View.read_writes_eq_canon _ _ _ (scover0_A_0 c i arg2 harg2 arg3 harg3 arg4 harg4 arg5 harg5 arg6 harg6 hc0 hc1 hc2 x0 x1)]
  unfold kernelRun0_A
  dsimp only
  sl_unfold_words
  rw [View.canon_unit_zero hz2]
  simp only [View.readAt_eq_ld, harg2.read_unread, harg3.read_unread, View.ld_unit_zero (S := S1x512x1600) hz3, View.ld_unit_zero (S := S100x4x1600) hz3]

/-- Second tile: the block of distances. -/
theorem dist_second (c : Dev nD) (i : grid0.Coords) (arg2 : Memref sig .tc .vmem S1x512x1600 .f32) (harg2 : arg2.IsWhole) (arg3 : Memref sig .tc .vmem S100x4x1600 .f32) (harg3 : arg3.IsWhole) (arg4 : Memref sig .tc .vmem S1x100x4x512 .f32) (harg4 : arg4.IsWhole) (arg5 : Memref sig .tc .vmem S1x100x1 .f32) (harg5 : arg5.IsWhole) (arg6 : Memref sig .tc .vmem S100x4 .f32) (harg6 : arg6.IsWhole) (hc0 : ¬cond0_0 i) (hc1 : cond0_1 i) (hc2 : cond0_2 i)
    (x0 : Vec F S1x512x1600 .f32) (x1 : Vec F S100x4x1600 .f32) (xs0 : Vec F S100x4 .f32) :
    out0_B_2 c i arg2 harg2 arg3 harg3 arg4 harg4 arg5 harg5 arg6 harg6 hc0 hc1 hc2 x0 x1 xs0 = k0_pay3 x0 x1 := by
  unfold out0_B_2
  rw [View.read_writes_eq_canon _ _ _ (cover0_B_2 c i arg2 harg2 arg3 harg3 arg4 harg4 arg5 harg5 arg6 harg6 hc0 hc1 hc2 x0 x1 xs0)]
  unfold kernelRun0_B
  dsimp only
  sl_unfold_words
  rw [View.canon_unit_zero hz4]
  simp only [View.readAt_eq_ld, harg2.read_unread, harg3.read_unread, View.ld_unit_zero (S := S1x512x1600) hz3, View.ld_unit_zero (S := S100x4x1600) hz3]

/-- Second tile: the scratch is lowered to the minimum of what it held and the block's minima. -/
theorem scratch_second (c : Dev nD) (i : grid0.Coords) (arg2 : Memref sig .tc .vmem S1x512x1600 .f32) (harg2 : arg2.IsWhole) (arg3 : Memref sig .tc .vmem S100x4x1600 .f32) (harg3 : arg3.IsWhole) (arg4 : Memref sig .tc .vmem S1x100x4x512 .f32) (harg4 : arg4.IsWhole) (arg5 : Memref sig .tc .vmem S1x100x1 .f32) (harg5 : arg5.IsWhole) (arg6 : Memref sig .tc .vmem S100x4 .f32) (harg6 : arg6.IsWhole) (hc0 : ¬cond0_0 i) (hc1 : cond0_1 i) (hc2 : cond0_2 i)
    (x0 : Vec F S1x512x1600 .f32) (x1 : Vec F S100x4x1600 .f32) (xs0 : Vec F S100x4 .f32) :
    sout0_B_0 c i arg2 harg2 arg3 harg3 arg4 harg4 arg5 harg5 arg6 harg6 hc0 hc1 hc2 x0 x1 xs0 = k0_pay6 x0 x1 xs0 := by
  unfold sout0_B_0
  rw [View.read_writes_eq_canon _ _ _ (scover0_B_0 c i arg2 harg2 arg3 harg3 arg4 harg4 arg5 harg5 arg6 harg6 hc0 hc1 hc2 x0 x1 xs0)]
  unfold kernelRun0_B
  dsimp only
  sl_unfold_words
  rw [View.canon_unit_zero hz2]
  simp only [View.readAt_eq_ld, harg2.read_unread, harg3.read_unread, harg6.read_unread, View.ld_unit_zero (S := S100x4) hz2, View.ld_unit_zero (S := S1x512x1600) hz3, View.ld_unit_zero (S := S100x4x1600) hz3]

/-- Second tile: the prototype distances, from the scratch just stored. -/
theorem protod_second (c : Dev nD) (i : grid0.Coords) (arg2 : Memref sig .tc .vmem S1x512x1600 .f32) (harg2 : arg2.IsWhole) (arg3 : Memref sig .tc .vmem S100x4x1600 .f32) (harg3 : arg3.IsWhole) (arg4 : Memref sig .tc .vmem S1x100x4x512 .f32) (harg4 : arg4.IsWhole) (arg5 : Memref sig .tc .vmem S1x100x1 .f32) (harg5 : arg5.IsWhole) (arg6 : Memref sig .tc .vmem S100x4 .f32) (harg6 : arg6.IsWhole) (hc0 : ¬cond0_0 i) (hc1 : cond0_1 i) (hc2 : cond0_2 i)
    (x0 : Vec F S1x512x1600 .f32) (x1 : Vec F S100x4x1600 .f32) (xs0 : Vec F S100x4 .f32) :
    out0_B_3 c i arg2 harg2 arg3 harg3 arg4 harg4 arg5 harg5 arg6 harg6 hc0 hc1 hc2 x0 x1 xs0 = k0_pay1 (k0_pay6 x0 x1 xs0) := by
  unfold out0_B_3
  rw [View.read_writes_eq_canon _ _ _ (cover0_B_3 c i arg2 harg2 arg3 harg3 arg4 harg4 arg5 harg5 arg6 harg6 hc0 hc1 hc2 x0 x1 xs0)]
  unfold kernelRun0_B
  dsimp only
  sl_unfold_words
  rw [View.canon_unit_zero hz3]
  simp only [View.readAt_eq_ld, harg2.read_unread, harg3.read_unread, harg6.read_unread, View.readCov_unit_zero (S := S100x4) _ hz2, View.ld_unit_zero (S := S100x4) hz2, View.ld_unit_zero (S := S1x512x1600) hz3, View.ld_unit_zero (S := S100x4x1600) hz3]

end Cert.ProtoDist.Pieces

end
-- ==== Proof.Spec.lean ====
/-
  The mathematics of the prototype-distance layer, over the extended reals.

  For an embedding array E[b, n, e] and a prototype array P[p, k, e] the distance of prototype row (p, k) from
  embedding row (b, n) is the clipped root of ‖P[p,k]‖² + ‖E[b,n]‖² − 2 ⟨P[p,k], E[b,n]⟩; the pooled distance is its
  minimum over the sequence positions n, and the prototype distance the sum over k of the pooled distances'
  absolute values. The minimum over the 1024 positions is the minimum of the minima over the two halves.
-/
import Idealize.ShloMosaic.PureOps.Ideal
import Idealize.ShloMosaic.PureOps.Ideal.Laws
import Idealize.ShloMosaic.Lib.ValueIdx

noncomputable section

namespace Cert.ProtoDist

open Idealize.ShloMosaic Idealize.ShloMosaic.ValueIdx

/-- The clipped root of `(a + b) − 2 c`: the square root of its positive part. -/
def clipRoot (a b c : EReal) : EReal :=
  Ideal.sqrt (max ((a + b) - Ideal.ofBits .f32 0x40000000#32 * c) (Ideal.ofBits .f32 0x00000000#32))

/-- The value minima start from. -/
abbrev posInf : EReal := Ideal.ofBits .f32 0x7F800000#32

theorem posInf_eq_top : posInf = ⊤ := by simp [posInf, Ideal.ofBits, Ideal.ieee]

/-- The embedding array and the prototype array. -/
abbrev EmbArr : Type := (⟨3, ![64, 1024, 1600]⟩ : Shape).Idx → EReal
abbrev ProtoArr : Type := (⟨3, ![100, 4, 1600]⟩ : Shape).Idx → EReal

/-- ‖E[b, n]‖². -/
def sqE (E : EmbArr) (b : Fin 64) (n : Fin 1024) : EReal := ∑ e : Fin 1600, E (ix3 b n e) * E (ix3 b n e)
/-- ‖P[p, k]‖². -/
def sqP (P : ProtoArr) (p : Fin 100) (k : Fin 4) : EReal := ∑ e : Fin 1600, P (ix3 p k e) * P (ix3 p k e)
/-- ⟨P[p, k], E[b, n]⟩. -/
def innerPE (P : ProtoArr) (E : EmbArr) (p : Fin 100) (k : Fin 4) (b : Fin 64) (n : Fin 1024) : EReal :=
  ∑ e : Fin 1600, P (ix3 p k e) * E (ix3 b n e)

/-- The distance of prototype row (p, k) from embedding row (b, n). -/
def dist (E : EmbArr) (P : ProtoArr) (b : Fin 64) (p : Fin 100) (k : Fin 4) (n : Fin 1024) : EReal :=
  clipRoot (sqP P p k) (sqE E b n) (innerPE P E p k b n)

/-- Its minimum over the sequence positions. -/
def minPool (E : EmbArr) (P : ProtoArr) (b : Fin 64) (p : Fin 100) (k : Fin 4) : EReal :=
  Finset.univ.fold min posInf fun n : Fin 1024 => dist E P b p k n

/-- The sum over k of the pooled distances' absolute values. -/
def protoDist (E : EmbArr) (P : ProtoArr) (b : Fin 64) (p : Fin 100) : EReal :=
  ∑ k : Fin 4, max (minPool E P b p k) (-(minPool E P b p k))

/-- Position `r` of the lower half, and of the upper half, of the 1024 positions. -/
abbrev lo (r : Fin 512) : Fin 1024 := ⟨r.val, by have := r.isLt; omega⟩
abbrev hi (r : Fin 512) : Fin 1024 := ⟨512 + r.val, by have := r.isLt; omega⟩

/-- A minimum over the 1024 positions is the minimum of the minima over the two halves. -/
theorem fold_min_halves (g : Fin 1024 → EReal) :
    min (Finset.univ.fold min posInf fun r : Fin 512 => g (lo r)) (Finset.univ.fold min posInf fun r : Fin 512 => g (hi r))
      = Finset.univ.fold min posInf g := by
  refine eq_of_forall_le_iff fun c => ?_
  rw [le_min_iff, Finset.le_fold_min, Finset.le_fold_min, Finset.le_fold_min]
  constructor
  · rintro ⟨⟨h0, h1⟩, -, h2⟩
    refine ⟨h0, fun n _ => ?_⟩
    by_cases hn : n.val < 512
    · exact h1 ⟨n.val, hn⟩ (Finset.mem_univ _)
    · have h := h2 ⟨n.val - 512, by have := n.isLt; omega⟩ (Finset.mem_univ _)
      have e : hi ⟨n.val - 512, by have := n.isLt; omega⟩ = n := Fin.ext (by show 512 + (n.val - 512) = n.val; omega)
      rwa [e] at h
  · rintro ⟨h0, h1⟩
    exact ⟨⟨h0, fun r _ => h1 _ (Finset.mem_univ _)⟩, h0, fun r _ => h1 _ (Finset.mem_univ _)⟩

end Cert.ProtoDist

end
-- ==== Proof.Payloads.lean ====
/-
  The kernel body's values read at an index, at the ideal values.

  At one grid point the body holds one block x0[0, r, e] of 512 embedding rows and the whole prototype array
  x1[p, k, e]. It computes the 512 rows' squared norms, the prototypes' squared norms and the 400 × 512 inner
  products, and from them the distances; the distances' minimum over the 512 rows; the running minimum against the
  scratch; and, from the scratch, the sum over k of absolute values.
-/
import proofs.«103343_j53102975648266_1_alg».proof.Proof.Gen.KernelIdeal.Skeleton
import proofs.«103343_j53102975648266_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ProtoDist.Payloads

open Idealize.ShloMosaic Idealize.ShloMosaic.ValueIdx Cert.KernelIdeal Cert.KernelIdeal.Gen Cert.ProtoDist

/-! ## The reductions read at an index -/

/-- The sum along the second axis of a 512 × 1600 array, at row r. -/
theorem sum_512x1600 (w : FVec Ideal S512x1600 .f32) (h : S512x1600.Reduces [1] S512) (hφ : FKind.Formats FTy.f32)
    (hacc : (0x00000000#32 : BitVec 32) = FKind.add.neutral .f32 hφ) (r : Fin 512) :
    multiReduction (F := Ideal) .add [1] S512 w 0x00000000#32 h hφ hacc (ix1 r) = ∑ e : Fin 1600, w (ix2 r e) := by
  refine (Ideal.multiReduction_add_single w _ h hφ hacc (ix1 r)).trans ?_
  refine Finset.sum_congr rfl fun e _ => ?_
  exact congrArg w (funext fun a => Fin.ext (by match a with | ⟨0, _⟩ => rfl | ⟨1, _⟩ => rfl))

/-- The sum along the last axis of a 100 × 4 × 1600 array, at (p, k). -/
theorem sum_100x4x1600 (w : FVec Ideal S100x4x1600 .f32) (h : S100x4x1600.Reduces [2] S100x4) (hφ : FKind.Formats FTy.f32)
    (hacc : (0x00000000#32 : BitVec 32) = FKind.add.neutral .f32 hφ) (p : Fin 100) (k : Fin 4) :
    multiReduction (F := Ideal) .add [2] S100x4 w 0x00000000#32 h hφ hacc (ix2 p k) = ∑ e : Fin 1600, w (ix3 p k e) := by
  refine (Ideal.multiReduction_add_single w _ h hφ hacc (ix2 p k)).trans ?_
  refine Finset.sum_congr rfl fun e _ => ?_
  exact congrArg w (funext fun a => Fin.ext (by match a with | ⟨0, _⟩ => rfl | ⟨1, _⟩ => rfl | ⟨2, _⟩ => rfl))

/-- The sum along the second axis of a 100 × 4 array, at p. -/
theorem sum_100x4 (w : FVec Ideal S100x4 .f32) (h : S100x4.Reduces [1] S100) (hφ : FKind.Formats FTy.f32)
    (hacc : (0x00000000#32 : BitVec 32) = FKind.add.neutral .f32 hφ) (p : Fin 100) :
    multiReduction (F := Ideal) .add [1] S100 w 0x00000000#32 h hφ hacc (ix1 p) = ∑ k : Fin 4, w (ix2 p k) := by
  refine (Ideal.multiReduction_add_single w _ h hφ hacc (ix1 p)).trans ?_
  refine Finset.sum_congr rfl fun k _ => ?_
  exact congrArg w (funext fun a => Fin.ext (by match a with | ⟨0, _⟩ => rfl | ⟨1, _⟩ => rfl))

/-- The minimum along the last axis of a 100 × 4 × 512 array, at (p, k): the fold of min from +∞ over the 512 rows. -/
theorem min_100x4x512 (w : FVec Ideal S100x4x512 .f32) (h : S100x4x512.Reduces [2] S100x4) (hφ : FKind.Formats FTy.f32)
    (hacc : (0x7F800000#32 : BitVec 32) = FKind.minimumf.neutral .f32 hφ) (p : Fin 100) (k : Fin 4) :
    multiReduction (F := Ideal) .minimumf [2] S100x4 w 0x7F800000#32 h hφ hacc (ix2 p k)
      = Finset.univ.fold min posInf fun r : Fin 512 => w (ix3 p k r) := by
  rw [multiReduction_minimumf_eq_fold]
  refine (h.fold_filter_drop_single _ _ w (ix2 p k)).trans ?_
  refine congrArg (Finset.univ.fold min posInf) (funext fun r => ?_)
  exact congrArg w (funext fun a => Fin.ext (by match a with | ⟨0, _⟩ => rfl | ⟨1, _⟩ => rfl | ⟨2, _⟩ => rfl))

/-! ## The layout operations read at an index -/

/-- Row 4 p + k of the 400 prototype rows. -/
abbrev row (p : Fin 100) (k : Fin 4) : Fin 400 := ⟨4 * p.val + k.val, by have := p.isLt; have := k.isLt; omega⟩

/-- The 100 × 4 × 1600 array viewed 400 × 1600 reads, at (4 p + k, e), the array at (p, k, e). -/
theorem cast_400x1600 {α : Type} (v : S100x4x1600.Idx → α) (h : S100x4x1600.ShapeCasts S400x1600) (p : Fin 100) (k : Fin 4) (e : Fin 1600) :
    shapeCast S400x1600 v h (ix2 (row p k) e) = v (ix3 p k e) :=
  shapeCast_apply v h _ _ (by
    rw [Shape.rowMajor_val_three, Shape.rowMajor_val_two]
    show (p.val * 4 + k.val) * 1600 + e.val = (4 * p.val + k.val) * 1600 + e.val
    omega)

/-- The 400 × 512 array viewed 100 × 4 × 512 reads, at (p, k, r), the array at (4 p + k, r). -/
theorem cast_100x4x512 {α : Type} (v : S400x512.Idx → α) (h : S400x512.ShapeCasts S100x4x512) (p : Fin 100) (k : Fin 4) (r : Fin 512) :
    shapeCast S100x4x512 v h (ix3 p k r) = v (ix2 (row p k) r) :=
  shapeCast_apply v h _ _ (by
    rw [Shape.rowMajor_val_three, Shape.rowMajor_val_two]
    show (4 * p.val + k.val) * 512 + r.val = (p.val * 4 + k.val) * 512 + r.val
    omega)

/-- The 100 × 4 array under a trailing unit axis, broadcast along it, reads at (p, k, r) the array at (p, k). -/
theorem bcast_pk {α : Type} (v : S100x4.Idx → α) (h1 : S100x4.ShapeCasts S100x4x1) (h2 : S100x4x1.Broadcasts S100x4x512)
    (p : Fin 100) (k : Fin 4) (r : Fin 512) :
    broadcastTo S100x4x512 (shapeCast S100x4x1 v h1) h2 (ix3 p k r) = v (ix2 p k) := by
  refine (broadcastTo_apply _ h2 (ix3 p k r) (ix3 p k (0 : Fin 1)) (fun a => ?_)).trans ?_
  · match a with
    | ⟨0, _⟩ => show p.val = if (100 : Nat) = 1 then 0 else p.val; rw [if_neg (by decide)]
    | ⟨1, _⟩ => show k.val = if (4 : Nat) = 1 then 0 else k.val; rw [if_neg (by decide)]
    | ⟨2, _⟩ => show 0 = if (1 : Nat) = 1 then 0 else r.val; rw [if_pos rfl]
  · exact shapeCast_apply v h1 _ _ (by
      rw [Shape.rowMajor_val_three, Shape.rowMajor_val_two]
      show p.val * 4 + k.val = (p.val * 4 + k.val) * 1 + 0
      omega)

/-- The 512 vector under two leading unit axes, broadcast along them, reads at (p, k, r) the vector at r. -/
theorem bcast_r {α : Type} (v : S512.Idx → α) (h1 : S512.ShapeCasts S1x1x512) (h2 : S1x1x512.Broadcasts S100x4x512)
    (p : Fin 100) (k : Fin 4) (r : Fin 512) :
    broadcastTo S100x4x512 (shapeCast S1x1x512 v h1) h2 (ix3 p k r) = v (ix1 r) := by
  refine (broadcastTo_apply _ h2 (ix3 p k r) (ix3 (0 : Fin 1) (0 : Fin 1) r) (fun a => ?_)).trans ?_
  · match a with
    | ⟨0, _⟩ => show 0 = if (1 : Nat) = 1 then 0 else p.val; rw [if_pos rfl]
    | ⟨1, _⟩ => show 0 = if (1 : Nat) = 1 then 0 else k.val; rw [if_pos rfl]
    | ⟨2, _⟩ => show r.val = if (512 : Nat) = 1 then 0 else r.val; rw [if_neg (by decide)]
  · exact shapeCast_apply v h1 _ _ (by
      rw [Shape.rowMajor_val_three, Shape.rowMajor_val_one]
      show r.val = (0 * 1 + 0) * 512 + r.val
      omega)

/-- The 100 vector under a trailing and then a leading unit axis reads at (0, p, 0) the vector at p. -/
theorem cast_1x100x1 {α : Type} (v : S100.Idx → α) (h1 : S100.ShapeCasts S100x1) (h2 : S100x1.ShapeCasts S1x100x1) (p : Fin 100) :
    shapeCast S1x100x1 (shapeCast S100x1 v h1) h2 (ix3 (0 : Fin 1) p (0 : Fin 1)) = v (ix1 p) := by
  refine (shapeCast_apply _ h2 _ (ix2 p (0 : Fin 1)) (by
    rw [Shape.rowMajor_val_three, Shape.rowMajor_val_two]
    show p.val * 1 + 0 = (0 * 100 + p.val) * 1 + 0
    omega)).trans ?_
  exact shapeCast_apply v h1 _ _ (by
    rw [Shape.rowMajor_val_two, Shape.rowMajor_val_one]
    show p.val = p.val * 1 + 0
    omega)

/-! ## The product read at an index -/

/-- The operand indices of the product at output index i and contraction index q, axis by axis: the first operand's are
    (i 0, q), the second's (i 1, q). -/
theorem lhs_dot_0 (i : S400x512.Idx) (q : dot_S400x1600_S512x1600_S400x512_1_1_0_0_n_n.contr.Idx) :
    (dot_S400x1600_S512x1600_S400x512_1_1_0_0_n_n.lhsIdx i q 0).val = (i 0).val := by
  unfold DotDims.lhsIdx
  rw [dif_neg (show ¬(0 : Fin S400x1600.rank) ∈ dot_S400x1600_S512x1600_S400x512_1_1_0_0_n_n.lhsBatch by decide), dif_pos (show (0 : Fin S400x1600.rank) ∈ dot_S400x1600_S512x1600_S400x512_1_1_0_0_n_n.lhsNonContracting by decide)]
  rfl
theorem lhs_dot_1 (i : S400x512.Idx) (q : dot_S400x1600_S512x1600_S400x512_1_1_0_0_n_n.contr.Idx) :
    (dot_S400x1600_S512x1600_S400x512_1_1_0_0_n_n.lhsIdx i q 1).val = (q ⟨0, by decide⟩).val :=
  dot_S400x1600_S512x1600_S400x512_1_1_0_0_n_n.lhsIdx_val_of_single rfl i q
theorem rhs_dot_0 (i : S400x512.Idx) (q : dot_S400x1600_S512x1600_S400x512_1_1_0_0_n_n.contr.Idx) :
    (dot_S400x1600_S512x1600_S400x512_1_1_0_0_n_n.rhsIdx i q 0).val = (i 1).val := by
  unfold DotDims.rhsIdx
  rw [dif_neg (show ¬(0 : Fin S512x1600.rank) ∈ dot_S400x1600_S512x1600_S400x512_1_1_0_0_n_n.rhsBatch by decide), dif_pos (show (0 : Fin S512x1600.rank) ∈ dot_S400x1600_S512x1600_S400x512_1_1_0_0_n_n.rhsNonContracting by decide)]
  rfl
theorem rhs_dot_1 (i : S400x512.Idx) (q : dot_S400x1600_S512x1600_S400x512_1_1_0_0_n_n.contr.Idx) :
    (dot_S400x1600_S512x1600_S400x512_1_1_0_0_n_n.rhsIdx i q 1).val = (q ⟨0, by decide⟩).val :=
  dot_S400x1600_S512x1600_S400x512_1_1_0_0_n_n.rhsIdx_val_of_single rfl i q

/-- The product of a 400 × 1600 and a 512 × 1600 array contracted along their second axes, accumulated into zero, reads at
    (m, r) the sum over e of the first at (m, e) times the second at (r, e). -/
theorem matmul_read {φ₁ φ₂ : FTy} (A : FVec Ideal S400x1600 φ₁) (B : FVec Ideal S512x1600 φ₂) (m : Fin 400) (r : Fin 512) :
    matmul (F := Ideal) dot_S400x1600_S512x1600_S400x512_1_1_0_0_n_n none A B (constant S400x512 .f32 0x00000000#32) (ix2 m r)
      = ∑ e : Fin 1600, A (ix2 m e) * B (ix2 r e) := by
  refine (Ideal.matmul_constant_zero_apply dot_S400x1600_S512x1600_S400x512_1_1_0_0_n_n none A B (ix2 m r)).trans ?_
  rw [← Equiv.sum_comp (ValueIdx.contrEquiv1 dot_S400x1600_S512x1600_S400x512_1_1_0_0_n_n 1600 rfl rfl).symm]
  refine Finset.sum_congr rfl fun e _ => ?_
  have he := ValueIdx.contrEquiv1_symm_val dot_S400x1600_S512x1600_S400x512_1_1_0_0_n_n 1600 rfl rfl e
  have el : dot_S400x1600_S512x1600_S400x512_1_1_0_0_n_n.lhsIdx (ix2 m r) ((ValueIdx.contrEquiv1 dot_S400x1600_S512x1600_S400x512_1_1_0_0_n_n 1600 rfl rfl).symm e) = ix2 m e := funext fun a => Fin.ext (by
    match a with
    | ⟨0, _⟩ => exact lhs_dot_0 _ _
    | ⟨1, _⟩ => exact (lhs_dot_1 _ _).trans he)
  have er : dot_S400x1600_S512x1600_S400x512_1_1_0_0_n_n.rhsIdx (ix2 m r) ((ValueIdx.contrEquiv1 dot_S400x1600_S512x1600_S400x512_1_1_0_0_n_n 1600 rfl rfl).symm e) = ix2 r e := funext fun a => Fin.ext (by
    match a with
    | ⟨0, _⟩ => exact rhs_dot_0 _ _
    | ⟨1, _⟩ => exact (rhs_dot_1 _ _).trans he)
  rw [el, er]

/-! ## The payloads -/

/-- The pointwise tail of the distance: from the two broadcast norms a, b and the products c, the clipped root. -/
theorem tail_apply (a b c : FVec Ideal S100x4x512 .f32) (i : S100x4x512.Idx) :
    sqrt (maximumf (subf (addf a b) (mulf (broadcast S100x4x512 (Scalar.ofBits (F := Ideal) .f32 0x40000000#32)) c))
      (broadcast S100x4x512 (Scalar.ofBits (F := Ideal) .f32 0x00000000#32))) i = clipRoot (a i) (b i) (c i) := rfl

/-- The distance the body computes for prototype row (p, k) and row r of the block. -/
theorem pay2_apply (x0 : Vec Ideal S1x512x1600 .f32) (x1 : Vec Ideal S100x4x1600 .f32) (p : Fin 100) (k : Fin 4) (r : Fin 512) :
    k0_pay2 (F := Ideal) x0 x1 (ix3 p k r)
      = clipRoot (∑ e : Fin 1600, x1 (ix3 p k e) * x1 (ix3 p k e))
          (∑ e : Fin 1600, x0 (ix3 (0 : Fin 1) r e) * x0 (ix3 (0 : Fin 1) r e))
          (∑ e : Fin 1600, x1 (ix3 p k e) * x0 (ix3 (0 : Fin 1) r e)) := by
  unfold k0_pay2
  refine (tail_apply _ _ _ (ix3 p k r)).trans ?_
  refine congr (congr (congrArg clipRoot ?_) ?_) ?_
  · -- ‖P[p, k]‖², broadcast along r
    refine (bcast_pk _ _ _ p k r).trans ?_
    exact sum_100x4x1600 _ _ _ _ p k
  · -- ‖E[r]‖², broadcast along (p, k)
    refine (bcast_r _ _ _ p k r).trans ?_
    refine (sum_512x1600 _ _ _ _ r).trans ?_
    refine Finset.sum_congr rfl fun e _ => ?_
    have h := shapeCast_1ab_ab_apply x0 shapeCasts_S1x512x1600_S512x1600 r e
    exact congr (congrArg HMul.hMul h) h
  · -- ⟨P[p, k], E[r]⟩
    refine (cast_100x4x512 _ _ p k r).trans ?_
    refine (matmul_read _ _ (row p k) r).trans ?_
    refine Finset.sum_congr rfl fun e _ => ?_
    have h0 := shapeCast_1ab_ab_apply x0 shapeCasts_S1x512x1600_S512x1600 r e
    have h1 := cast_400x1600 x1 shapeCasts_S100x4x1600_S400x1600 p k e
    exact congr (congrArg HMul.hMul h1) h0

/-- The stored block of distances is the distances under a leading unit axis. -/
theorem pay3_apply (x0 : Vec Ideal S1x512x1600 .f32) (x1 : Vec Ideal S100x4x1600 .f32) (p : Fin 100) (k : Fin 4) (r : Fin 512) :
    k0_pay3 (F := Ideal) x0 x1 (ix4 (0 : Fin 1) p k r) = k0_pay2 (F := Ideal) x0 x1 (ix3 p k r) := by
  unfold k0_pay3
  exact shapeCast_abc_1abc_apply _ _ (0 : Fin 1) p k r

/-- The block's minimum over its 512 rows. -/
theorem pay4_apply (x0 : Vec Ideal S1x512x1600 .f32) (x1 : Vec Ideal S100x4x1600 .f32) (p : Fin 100) (k : Fin 4) :
    k0_pay4 (F := Ideal) x0 x1 (ix2 p k)
      = Finset.univ.fold min posInf fun r : Fin 512 => k0_pay2 (F := Ideal) x0 x1 (ix3 p k r) := by
  unfold k0_pay4
  exact min_100x4x512 _ _ _ _ p k

/-- What the first tile stores into the scratch is that minimum. -/
theorem pay5_eq (x0 : Vec Ideal S1x512x1600 .f32) (x1 : Vec Ideal S100x4x1600 .f32) :
    k0_pay5 (F := Ideal) x0 x1 = k0_pay4 (F := Ideal) x0 x1 := by
  unfold k0_pay5
  exact shapeCast_self _ _

/-- What a later tile stores: the minimum of the scratch and the block's minimum. -/
theorem pay6_apply (x0 : Vec Ideal S1x512x1600 .f32) (x1 : Vec Ideal S100x4x1600 .f32) (v : Vec Ideal S100x4 .f32)
    (p : Fin 100) (k : Fin 4) :
    k0_pay6 (F := Ideal) x0 x1 v (ix2 p k) = min (v (ix2 p k)) (k0_pay4 (F := Ideal) x0 x1 (ix2 p k)) := by
  unfold k0_pay6
  exact congrFun (shapeCast_self (minimumf v (k0_pay4 (F := Ideal) x0 x1)) _) (ix2 p k)

/-- The last tile's output: the sum over k of the scratch's absolute values. -/
theorem pay1_apply (v : Vec Ideal S100x4 .f32) (p : Fin 100) :
    k0_pay1 (F := Ideal) v (ix3 (0 : Fin 1) p (0 : Fin 1)) = ∑ k : Fin 4, max (v (ix2 p k)) (-(v (ix2 p k))) := by
  unfold k0_pay1
  refine (cast_1x100x1 _ _ _ p).trans ?_
  exact sum_100x4 _ _ _ _ p

end Cert.ProtoDist.Payloads

end
-- ==== Proof.KernelValue.lean ====
/-
  The kernel's result arrays, read off its run at the ideal values.

  Grid point t = 2 b + s handles sequence tile s (512 positions) of batch row b. Its block of distances is block
  (b, ·, ·, s) of the distance array [b, p, k, n], so that array ends holding the specification's distances. The
  scratch after an even point holds the first tile's minima, and the odd point that follows lowers it by the second
  tile's minima, which makes it the minimum over all 1024 positions; the odd point's output block is row b of the
  prototype distances. The host operations after the call transpose the distance array to [b, p, n, k], drop the
  unit axis of the prototype distances and multiply them by the transposed weight matrix.
-/
import proofs.«103343_j53102975648266_1_alg».proof.Proof.Gen.KernelIdeal.Frame
import proofs.«103343_j53102975648266_1_alg».proof.Proof.Pieces
import proofs.«103343_j53102975648266_1_alg».proof.Proof.Payloads
import proofs.«103343_j53102975648266_1_alg».proof.Proof.Spec
import Idealize.ShloMosaic.Lib.Pipeline.Value
import Idealize.ShloMosaic.Lib.StableHlo.Run
import Idealize.ShloMosaic.Lib.Tactic

set_option maxRecDepth 16384

noncomputable section

namespace Cert.ProtoDist.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.ProtoDist Cert.ProtoDist.Pieces Cert.ProtoDist.Payloads

variable (m : (ℓ : Loc nD τ sig) → Buf (Elt Ideal) ℓ) (ρ : Dev nD → PrngReg)

/-- The embedding and prototype arrays as the call finds them, and a point's blocks of them. -/
abbrev embArr (c : Dev nD) : EmbArr := V m c main_arg0
abbrev protoArr (c : Dev nD) : ProtoArr := V m c main_arg1
abbrev embBlk (c : Dev nD) (t : Fin cfg0.N) : Vec Ideal S1x512x1600 .f32 := iblk m c 0 t
abbrev protoBlk (c : Dev nD) (t : Fin cfg0.N) : Vec Ideal S100x4x1600 .f32 := iblk m c 1 t

/-- The block indices of the four windows at point t: batch row t / 2, sequence tile t % 2. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = 0 ∧ win0_1.index t (1 : Fin 3) = 0 ∧ win0_1.index t (2 : Fin 3) = 0
    ∧ win0_2.index t (0 : Fin 4) = t.val / 2 ∧ win0_2.index t (1 : Fin 4) = 0 ∧ win0_2.index t (2 : Fin 4) = 0
    ∧ win0_2.index t (3 : Fin 4) = t.val % 2
    ∧ win0_3.index t (0 : Fin 3) = t.val / 2 ∧ win0_3.index t (1 : Fin 3) = 0 ∧ win0_3.index t (2 : Fin 3) = 0 :=
  (by decide +kernel : ∀ t : Fin grid0.N, _)

/-- Row r of the embedding block at point t is row 512 (t % 2) + r of batch row t / 2. -/
theorem embBlk_apply (c : Dev nD) (t : Fin cfg0.N) (r : Fin 512) (e : Fin 1600) (b : Fin 64) (n : Fin 1024)
    (hb : b.val = t.val / 2) (hn : n.val = 512 * (t.val % 2) + r.val) :
    embBlk m c t (ix3 (0 : Fin 1) r e) = embArr m c (ix3 b n e) := by
  obtain ⟨e0, e1, e2, -⟩ := idx_facts t
  unfold embBlk iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 1600 + 1 * e.val = e.val; omega

/-- The prototype block at every point is the whole prototype array. -/
theorem protoBlk_apply (c : Dev nD) (t : Fin cfg0.N) (p : Fin 100) (k : Fin 4) (e : Fin 1600) :
    protoBlk m c t (ix3 p k e) = protoArr m c (ix3 p k e) := by
  obtain ⟨-, -, -, e0, e1, e2, -⟩ := idx_facts t
  unfold protoBlk iblk
  rw [View.read_apply]
  show V m c main_arg1 _ = V m c main_arg1 _
  congr 1
  funext a
  apply Fin.ext
  match a with
  | ⟨0, _⟩ => show win0_1.index t (0 : Fin 3) * 100 + 1 * p.val = p.val; omega
  | ⟨1, _⟩ => show win0_1.index t (1 : Fin 3) * 4 + 1 * k.val = k.val; omega
  | ⟨2, _⟩ => show win0_1.index t (2 : Fin 3) * 1600 + 1 * e.val = e.val; omega

/-- The distance the body computes at point t for prototype row (p, k) and row r of its block is the specification's
    distance from embedding row (t / 2, 512 (t % 2) + r). -/
theorem block_dist (c : Dev nD) (t : Fin cfg0.N) (p : Fin 100) (k : Fin 4) (r : Fin 512) (b : Fin 64) (n : Fin 1024)
    (hb : b.val = t.val / 2) (hn : n.val = 512 * (t.val % 2) + r.val) :
    k0_pay2 (F := Ideal) (embBlk m c t) (protoBlk m c t) (ix3 p k r) = dist (embArr m c) (protoArr m c) b p k n := by
  rw [pay2_apply]
  unfold dist sqP sqE innerPE
  simp only [protoBlk_apply m c t, embBlk_apply m c t r _ b n hb hn]

/-- After every point the distance window's buffer holds the block of distances of that point's blocks. -/
theorem outs_dist (c : Dev nD) (t : Fin cfg0.N) :
    (outsAt0 m c t.val t.isLt).1 = k0_pay3 (embBlk m c t) (protoBlk m c t) := by
  have hN : t.val < 128 := lt_of_lt_of_eq t.isLt (show cfg0.N = 128 from N_0)
  by_cases h0 : t.val % 2 = 0
  · have h1 : ¬t.val % 2 = 1 := by omega
    rw [outsAt0_A m c t h0 h1 h1]
    dsimp only
    exact dist_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h1 ((hcond0_2 t).mp h)) (iblk m c 0 t) (iblk m c 1 t)
  · have h1 : t.val % 2 = 1 := by omega
    rw [outsAt0_B m c t h0 h1 h1]
    dsimp only
    exact dist_second c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h1) (iblk m c 0 t) (iblk m c 1 t) _

/-- After an even point the scratch holds the minima of that point's block of distances. -/
theorem outs_scratch_even (c : Dev nD) (t : Fin cfg0.N) (h0 : t.val % 2 = 0) :
    (outsAt0 m c t.val t.isLt).2.2 = k0_pay5 (embBlk m c t) (protoBlk m c t) := by
  have h1 : ¬t.val % 2 = 1 := by omega
  rw [outsAt0_A m c t h0 h1 h1]
  dsimp only
  exact scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h1 ((hcond0_2 t).mp h)) (iblk m c 0 t) (iblk m c 1 t)

/-- The point before an odd point. -/
abbrev prev (t : Fin cfg0.N) : Fin cfg0.N := ⟨t.val - 1, Nat.lt_of_le_of_lt (Nat.sub_le _ _) t.isLt⟩

/-- After an odd point the prototype-distance window's buffer holds the sums of absolute values of the scratch, which
    is the minimum of the first tile's minima and this tile's. -/
theorem outs_protod_odd (c : Dev nD) (t : Fin cfg0.N) (h1 : t.val % 2 = 1) :
    (outsAt0 m c t.val t.isLt).2.1
      = k0_pay1 (k0_pay6 (embBlk m c t) (protoBlk m c t) (k0_pay5 (embBlk m c (prev t)) (protoBlk m c (prev t)))) := by
  have h0 : ¬t.val % 2 = 0 := by omega
  rw [outsAt0_B m c t h0 h1 h1]
  dsimp only
  rw [protod_second c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h1) (iblk m c 0 t) (iblk m c 1 t) _]
  have hp : (outsAt0 m c (t.val - 1) (Nat.lt_of_le_of_lt (Nat.sub_le _ _) t.isLt)).2.2 = k0_pay5 (embBlk m c (prev t)) (protoBlk m c (prev t)) :=
    outs_scratch_even m c (prev t) (by show (t.val - 1) % 2 = 0; omega)
  rw [hp]

/-- The distance array [b, p, k, n] and the prototype-distance array [b, p, 1] of the specification. -/
abbrev distArr (E : EmbArr) (P : ProtoArr) : S64x100x4x1024.Idx → EReal := fun i => dist E P (i 0) (i 1) (i 2) (i 3)
abbrev pdArr (E : EmbArr) (P : ProtoArr) : S64x100x1.Idx → EReal := fun i => protoDist E P (i 0) (i 1)

/-- What point t writes back into the distance array is its block of the specification's distances. -/
theorem flushed_dist (c : Dev nD) (t : Fin cfg0.N) :
    (dats m 0 c).flushed 2 t = ((cfg0.win 2).blk t).view.read (Elt Ideal) (distArr (embArr m c) (protoArr m c)) := by
  have hN : t.val < 128 := lt_of_lt_of_eq t.isLt (show cfg0.N = 128 from N_0)
  obtain ⟨-, -, -, -, -, -, e0, e1, e2, e3, -⟩ := idx_facts t
  funext y
  rw [View.read_apply]
  show ((dats m 0 c).after 2 t) ((cfg0.win 2).xinj (grid0.coords t) y) = distArr _ _ (((cfg0.win 2).blk t).view.emb y)
  rw [after0_2, outs_dist m c t]
  have h0 : (y 0).val < 1 := (y 0).isLt
  have h1 : (y 1).val < 100 := (y 1).isLt
  have h2 : (y 2).val < 4 := (y 2).isLt
  have h3 : (y 3).val < 512 := (y 3).isLt
  have ex : (cfg0.win 2).xinj (grid0.coords t) y = ix4 (0 : Fin 1) ⟨(y 1).val, h1⟩ ⟨(y 2).val, h2⟩ ⟨(y 3).val, h3⟩ :=
    funext fun a => Fin.ext (by
      match a with
      | ⟨0, _⟩ => show (y 0).val = 0; omega
      | ⟨1, _⟩ => rfl
      | ⟨2, _⟩ => rfl
      | ⟨3, _⟩ => rfl)
  have ei : ((cfg0.win 2).blk t).view.emb y
      = ix4 (⟨t.val / 2, by omega⟩ : Fin 64) (⟨(y 1).val, h1⟩ : Fin 100) (⟨(y 2).val, h2⟩ : Fin 4) (⟨512 * (t.val % 2) + (y 3).val, by omega⟩ : Fin 1024) :=
    funext fun a => Fin.ext (by
      match a with
      | ⟨0, _⟩ => show win0_2.index t (0 : Fin 4) * 1 + 1 * (y 0).val = t.val / 2; omega
      | ⟨1, _⟩ => show win0_2.index t (1 : Fin 4) * 100 + 1 * (y 1).val = (y 1).val; omega
      | ⟨2, _⟩ => show win0_2.index t (2 : Fin 4) * 4 + 1 * (y 2).val = (y 2).val; omega
      | ⟨3, _⟩ => show win0_2.index t (3 : Fin 4) * 512 + 1 * (y 3).val = 512 * (t.val % 2) + (y 3).val; omega)
  rw [ex, ei, pay3_apply]
  exact block_dist m c t _ _ _ _ _ rfl rfl

/-- The minimum of what the first tile left in the scratch and the second tile's minima is the pooled distance. -/
theorem pooled (c : Dev nD) (t : Fin cfg0.N) (h1 : t.val % 2 = 1) (b : Fin 64) (hb : b.val = t.val / 2) (p : Fin 100) (k : Fin 4) :
    min (k0_pay5 (F := Ideal) (embBlk m c (prev t)) (protoBlk m c (prev t)) (ix2 p k))
        (k0_pay4 (F := Ideal) (embBlk m c t) (protoBlk m c t) (ix2 p k))
      = minPool (embArr m c) (protoArr m c) b p k := by
  rw [pay5_eq, pay4_apply, pay4_apply]
  have ea : (fun r : Fin 512 => k0_pay2 (F := Ideal) (embBlk m c (prev t)) (protoBlk m c (prev t)) (ix3 p k r))
      = fun r : Fin 512 => dist (embArr m c) (protoArr m c) b p k (lo r) :=
    funext fun r => block_dist m c (prev t) p k r b (lo r) (by show b.val = (t.val - 1) / 2; omega)
      (by show r.val = 512 * ((t.val - 1) % 2) + r.val; omega)
  have eb : (fun r : Fin 512 => k0_pay2 (F := Ideal) (embBlk m c t) (protoBlk m c t) (ix3 p k r))
      = fun r : Fin 512 => dist (embArr m c) (protoArr m c) b p k (hi r) :=
    funext fun r => block_dist m c t p k r b (hi r) hb (by show 512 + r.val = 512 * (t.val % 2) + r.val; omega)
  rw [ea, eb]
  exact fold_min_halves fun n => dist (embArr m c) (protoArr m c) b p k n

/-- What an odd point writes back into the prototype-distance array is its batch row of the specification's. -/
theorem flushed_protoDist (c : Dev nD) (t : Fin cfg0.N) (hf : (cfg0.win 3).flush t = true) :
    (dats m 0 c).flushed 3 t = ((cfg0.win 3).blk t).view.read (Elt Ideal) (pdArr (embArr m c) (protoArr m c)) := by
  have hN : t.val < 128 := lt_of_lt_of_eq t.isLt (show cfg0.N = 128 from N_0)
  have ht : t.val % 2 = 1 := (flush0_3 t).mp hf
  obtain ⟨-, -, -, -, -, -, -, -, -, -, e0, e1, e2⟩ := idx_facts t
  funext y
  rw [View.read_apply]
  show ((dats m 0 c).after 3 t) ((cfg0.win 3).xinj (grid0.coords t) y) = pdArr _ _ (((cfg0.win 3).blk t).view.emb y)
  rw [after0_3, outs_protod_odd m c t ht]
  have h0 : (y 0).val < 1 := (y 0).isLt
  have h1 : (y 1).val < 100 := (y 1).isLt
  have h2 : (y 2).val < 1 := (y 2).isLt
  have ex : (cfg0.win 3).xinj (grid0.coords t) y = ix3 (0 : Fin 1) ⟨(y 1).val, h1⟩ (0 : Fin 1) :=
    funext fun a => Fin.ext (by
      match a with
      | ⟨0, _⟩ => show (y 0).val = 0; omega
      | ⟨1, _⟩ => rfl
      | ⟨2, _⟩ => show (y 2).val = 0; omega)
  have ei : ((cfg0.win 3).blk t).view.emb y = ix3 (⟨t.val / 2, by omega⟩ : Fin 64) (⟨(y 1).val, h1⟩ : Fin 100) (0 : Fin 1) :=
    funext fun a => Fin.ext (by
      match a with
      | ⟨0, _⟩ => show win0_3.index t (0 : Fin 3) * 1 + 1 * (y 0).val = t.val / 2; omega
      | ⟨1, _⟩ => show win0_3.index t (1 : Fin 3) * 100 + 1 * (y 1).val = (y 1).val; omega
      | ⟨2, _⟩ => show win0_3.index t (2 : Fin 3) * 1 + 1 * (y 2).val = 0; omega)
  rw [ex, ei, pay1_apply]
  show _ = protoDist (embArr m c) (protoArr m c) ⟨t.val / 2, _⟩ ⟨(y 1).val, h1⟩
  unfold protoDist
  refine Finset.sum_congr rfl fun k _ => ?_
  rw [pay6_apply, pooled m c t ht ⟨t.val / 2, by omega⟩ rfl]

/-- Every entry of the distance array lies in the block of the point of its batch row and sequence tile. -/
theorem cover_dist (i : S64x100x4x1024.Idx) :
    ∃ t : Fin cfg0.N, (cfg0.win 2).flush t = true ∧ i ∈ ((cfg0.win 2).blk t).view.set := by
  have hN : cfg0.N = 128 := N_0
  have i0 : (i 0).val < 64 := (i 0).isLt
  have i1 : (i 1).val < 100 := (i 1).isLt
  have i2 : (i 2).val < 4 := (i 2).isLt
  have i3 : (i 3).val < 1024 := (i 3).isLt
  obtain ⟨t, ht⟩ : ∃ t : Fin cfg0.N, t.val = 2 * (i 0).val + (i 3).val / 512 := ⟨⟨_, by omega⟩, rfl⟩
  refine ⟨t, flush0_2 t, ?_⟩
  obtain ⟨-, -, -, -, -, -, e0, e1, e2, e3, -⟩ := idx_facts t
  show i ∈ ((View.whole main_v0_0).slice (win0_2.rect t)).set
  rw [View.set_slice_whole, Rect.mem_set_unit]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 100 ≤ (i 1).val ∧ (i 1).val < win0_2.index t (1 : Fin 4) * 100 + 100; omega
  | ⟨2, _⟩ => show win0_2.index t (2 : Fin 4) * 4 ≤ (i 2).val ∧ (i 2).val < win0_2.index t (2 : Fin 4) * 4 + 4; omega
  | ⟨3, _⟩ => show win0_2.index t (3 : Fin 4) * 512 ≤ (i 3).val ∧ (i 3).val < win0_2.index t (3 : Fin 4) * 512 + 512; omega

/-- Every entry of the prototype-distance array lies in the block of the odd point of its batch row. -/
theorem cover_protoDist (i : S64x100x1.Idx) :
    ∃ t : Fin cfg0.N, (cfg0.win 3).flush t = true ∧ i ∈ ((cfg0.win 3).blk t).view.set := by
  have hN : cfg0.N = 128 := N_0
  have i0 : (i 0).val < 64 := (i 0).isLt
  have i1 : (i 1).val < 100 := (i 1).isLt
  have i2 : (i 2).val < 1 := (i 2).isLt
  obtain ⟨t, ht⟩ : ∃ t : Fin cfg0.N, t.val = 2 * (i 0).val + 1 := ⟨⟨_, by omega⟩, rfl⟩
  refine ⟨t, (flush0_3 t).mpr (by omega), ?_⟩
  obtain ⟨-, -, -, -, -, -, -, -, -, -, e0, e1, e2⟩ := idx_facts t
  show i ∈ ((View.whole main_v0_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 100 ≤ (i 1).val ∧ (i 1).val < win0_3.index t (1 : Fin 3) * 100 + 100; omega
  | ⟨2, _⟩ => show win0_3.index t (2 : Fin 3) * 1 ≤ (i 2).val ∧ (i 2).val < win0_3.index t (2 : Fin 3) * 1 + 1; omega

/-- So the two result arrays of the call end holding the specification's arrays. -/
theorem final_dist (c : Dev nD) : (dats m 0 c).arrAt 2 cfg0.N = distArr (embArr m c) (protoArr m c) :=
  (dats m 0 c).arrAt_eq_of_cover 2 _ (fun t _ => flushed_dist m c t) cover_dist
theorem final_protoDist (c : Dev nD) : (dats m 0 c).arrAt 3 cfg0.N = pdArr (embArr m c) (protoArr m c) :=
  (dats m 0 c).arrAt_eq_of_cover 3 _ (fun t hf => flushed_protoDist m c t hf) cover_protoDist

/-- The class scores: the prototype distances [b, p] times the transposed weight matrix. -/
abbrev classOut (pd : S64x100.Idx → EReal) (w : S2x100.Idx → EReal) : S64x2.Idx → EReal :=
  Host.dotGeneral (F := Ideal) (φ₁ := .f32) (φ₂ := .f32) dot_S64x100_S100x2_S64x2_1_0_0_1_n_n none pd
    (transpose S100x2 [1, 0] w transposes_S2x100_S100x2_1_0)

/-- The host operations after the call, read at the three results: the transposed distance array, the prototype
    distances without their unit axis, and their product with the transposed weight matrix. -/
theorem tail_dist (c : Dev nD) :
    Pipeline.afterTail₀ cfgs (dats m) 0 (V0 m) [hostOps1] c main_v1
      = transpose S64x100x1024x4 [0, 1, 3, 2] (distArr (embArr m c) (protoArr m c)) transposes_S64x100x4x1024_S64x100x1024x4_0_1_3_2 := by
  unfold Pipeline.afterTail₀
  show StableHlo.after hostOps1 _ (Proc.devRef .tc main_v1) = _
  after_results
  exact congrArg (fun a => transpose S64x100x1024x4 [0, 1, 3, 2] a transposes_S64x100x4x1024_S64x100x1024x4_0_1_3_2)
    ((Pipeline.withArrays_arr spec0 launch0.win.arr_inj c _ _ 2).trans (final_dist m c))

theorem tail_protoDist (c : Dev nD) :
    Pipeline.afterTail₀ cfgs (dats m) 0 (V0 m) [hostOps1] c main_v2
      = shapeCast S64x100 (pdArr (embArr m c) (protoArr m c)) shapeCasts_S64x100x1_S64x100 := by
  unfold Pipeline.afterTail₀
  show StableHlo.after hostOps1 _ (Proc.devRef .tc main_v2) = _
  after_results
  exact congrArg (fun a => shapeCast S64x100 a shapeCasts_S64x100x1_S64x100)
    ((Pipeline.withArrays_arr spec0 launch0.win.arr_inj c _ _ 3).trans (final_protoDist m c))

theorem tail_classOut (c : Dev nD) :
    Pipeline.afterTail₀ cfgs (dats m) 0 (V0 m) [hostOps1] c main_v4
      = classOut (shapeCast S64x100 (pdArr (embArr m c) (protoArr m c)) shapeCasts_S64x100x1_S64x100)
          (m ((c.tc : Thread nD τ).loc main_arg2)) := by
  unfold Pipeline.afterTail₀
  show StableHlo.after hostOps1 _ (Proc.devRef .tc main_v4) = _
  after_results
  have e1 := (Pipeline.withArrays_arr spec0 launch0.win.arr_inj c (V0 m c) (fun w => (dats m 0 c).arrAt w (cfgs 0).N) 3).trans
    (final_protoDist m c)
  have e2 := (Pipeline.withArrays_of_ne spec0 c (V0 m c) (fun w => (dats m 0 c).arrAt w (cfgs 0).N) main_arg2
    (by decide : ∀ w, Pipeline.arrRef spec0 w ≠ main_arg2)).trans (V_main_arg2 m c)
  exact congrArg₂ (fun a b => classOut (shapeCast S64x100 a shapeCasts_S64x100x1_S64x100) b) e1 e2

/-- The run, read: the three results at the specification's arrays through the host operations, the arguments
    unchanged. -/
theorem run : θ_run defs (onTc (τ := τ) (main (F := Ideal))) ⟨m, fun _ => 0, ρ⟩ fun r => ∀ c : Dev nD,
      r.2.mem ((c.tc : Thread nD τ).loc main_v2)
        = shapeCast S64x100 (pdArr (embArr m c) (protoArr m c)) shapeCasts_S64x100x1_S64x100
      ∧ r.2.mem ((c.tc : Thread nD τ).loc main_v1)
        = transpose S64x100x1024x4 [0, 1, 3, 2] (distArr (embArr m c) (protoArr m c)) transposes_S64x100x4x1024_S64x100x1024x4_0_1_3_2
      ∧ r.2.mem ((c.tc : Thread nD τ).loc main_v4)
        = classOut (shapeCast S64x100 (pdArr (embArr m c) (protoArr m c)) shapeCasts_S64x100x1_S64x100) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (tail_protoDist m c),
      ((h c).2 main_v1 (Pipeline.mem_restRefs_of main_v1 (by decide) (by decide))).trans (tail_dist m c),
      ((h c).2 main_v4 (Pipeline.mem_restRefs_of main_v4 (by decide) (by decide))).trans (tail_classOut m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.ProtoDist.KernelValue

end
-- ==== Proof.RefValue.lean ====
/-
  The reference's results read index by index: its distances are the distances of the specification, and its
  prototype distances the sums over k of the pooled distances' absolute values.
-/
import proofs.«103343_j53102975648266_1_alg».proof.Proof.Gen.ReferenceIdeal.Run
import proofs.«103343_j53102975648266_1_alg».proof.Proof.Gen.ReferenceIdeal.Read
import proofs.«103343_j53102975648266_1_alg».proof.Proof.Spec
import Idealize.ShloMosaic.Lib.Pipeline.Value
import Idealize.ShloMosaic.Lib.ValueIdx
import Idealize.ShloMosaic.PureOps.Ideal.Laws

noncomputable section

namespace Cert.ProtoDist.Ref

open Idealize.ShloMosaic Idealize.ShloMosaic.ValueIdx Cert.ReferenceIdeal Cert.ReferenceIdeal.Read Cert.ProtoDist

open Cert.ReferenceIdeal.Gen

/-- The reference's ‖E[b, n]‖², read at the index the two broadcasts reach. -/
theorem ref_sqE (E : EmbArr) (i : S64x100x1024x4.Idx) :
    val_main_v1 (F := Ideal) E (idx_main_v6 (idx_main_v8 i)) = sqE E (i 0) (i 2) := by
  rw [val_main_v1_apply]
  have h0 : (val_main_cst (F := Ideal)) (Shape.Idx.first h_S_) = 0 := Ideal.ofBits_zero_f32
  rw [h0, zero_add]
  unfold sqE
  refine Finset.sum_congr rfl fun k _ => ?_
  rw [val_main_v0_apply]
  have e : idx_main_v1 (idx_main_v6 (idx_main_v8 i)) k = ix3 (i 0) (i 2) k :=
    funext fun a => Fin.ext (by match a with | ⟨0, _⟩ => rfl | ⟨1, _⟩ => rfl | ⟨2, _⟩ => rfl)
  rw [e]
  rfl

/-- The reference's ‖P[p, k]‖², read at the index the two broadcasts reach. -/
theorem ref_sqP (P : ProtoArr) (i : S64x100x1024x4.Idx) :
    val_main_v3 (F := Ideal) P (idx_main_v7 (idx_main_v9 i)) = sqP P (i 1) (i 3) := by
  rw [val_main_v3_apply]
  have h0 : (val_main_cst_0 (F := Ideal)) (Shape.Idx.first h_S_) = 0 := Ideal.ofBits_zero_f32
  rw [h0, zero_add]
  unfold sqP
  refine Finset.sum_congr rfl fun k _ => ?_
  rw [val_main_v2_apply]
  have e : idx_main_v3 (idx_main_v7 (idx_main_v9 i)) k = ix3 (i 1) (i 3) k :=
    funext fun a => Fin.ext (by match a with | ⟨0, _⟩ => rfl | ⟨1, _⟩ => rfl | ⟨2, _⟩ => rfl)
  rw [e]
  rfl

/-- The reference's ⟨P[p, k], E[b, n]⟩, read through the transposition. -/
theorem ref_inner (E : EmbArr) (P : ProtoArr) (i : S64x100x1024x4.Idx) :
    val_main_v4 (F := Ideal) E P (idx_main_v5 i) = innerPE P E (i 1) (i 3) (i 0) (i 2) := by
  rw [val_main_v4_apply]
  unfold innerPE
  refine Finset.sum_congr rfl fun k _ => ?_
  have el : lidx_main_v4 (idx_main_v5 i) k = ix3 (i 1) (i 3) k :=
    funext fun a => Fin.ext (by match a with | ⟨0, _⟩ => rfl | ⟨1, _⟩ => rfl | ⟨2, _⟩ => rfl)
  have er : ridx_main_v4 (idx_main_v5 i) k = ix3 (i 0) (i 2) k :=
    funext fun a => Fin.ext (by match a with | ⟨0, _⟩ => rfl | ⟨1, _⟩ => rfl | ⟨2, _⟩ => rfl)
  rw [el, er]
  rfl

/-- The reference's distance array [b, p, n, k] holds the distance of prototype row (p, k) from embedding row (b, n). -/
theorem ref_dist (E : EmbArr) (P : ProtoArr) (i : S64x100x1024x4.Idx) :
    val_main_v16 (F := Ideal) E P i = dist E P (i 0) (i 1) (i 3) (i 2) := by
  rw [val_main_v16_apply, val_main_v15_apply, val_main_v13_apply, val_main_v10_apply, val_main_v12_apply,
    val_main_v8_apply, val_main_v6_apply, val_main_v9_apply, val_main_v7_apply, val_main_v11_apply,
    val_main_v5_apply, val_main_v14_apply, ref_sqE, ref_sqP, ref_inner]
  unfold dist clipRoot
  rw [add_comm (sqP P (i 1) (i 3)) (sqE E (i 0) (i 2))]
  rfl

/-- The reduced index (b, p, k) of the distance array with position n put back is (b, p, n, k). -/
theorem lift_pos (h : S64x100x1024x4.Reduces [2] S64x100x4) (b : Fin 64) (p : Fin 100) (k : Fin 4)
    (n : Fin (S64x100x1024x4.size 2)) : h.lift (ix3 b p k) n = ix4 b p (⟨n.val, n.isLt⟩ : Fin 1024) k :=
  funext fun c => Fin.ext (by match c with | ⟨0, _⟩ => rfl | ⟨1, _⟩ => rfl | ⟨2, _⟩ => rfl | ⟨3, _⟩ => rfl)

/-- The reference's minimum over the positions is the pooled distance. -/
theorem ref_minPool (E : EmbArr) (P : ProtoArr) (j : S64x100x4.Idx) :
    val_main_v17 (F := Ideal) E P j = minPool E P (j 0) (j 1) (j 2) := by
  have h : S64x100x1024x4.Reduces [2] S64x100x4 := by decide
  obtain ⟨b, p, k, rfl⟩ : ∃ b p k, j = ix3 b p k := ⟨j 0, j 1, j 2, eq_ix3 j⟩
  unfold val_main_v17
  rw [Host.reduce_eq_fold_single FloatOps.minimumf _ _ reducesTo_S64x100x1024x4_S64x100x4_d2 h h_S_]
  unfold minPool
  refine congrArg (fun f => Finset.fold min posInf f (Finset.univ : Finset (Fin 1024))) (funext fun n => ?_)
  show val_main_v16 (F := Ideal) E P (h.lift (ix3 b p k) n) = _
  rw [lift_pos h b p k n, ref_dist]
  rfl

/-- The reference's prototype distances [b, p]. -/
theorem ref_protoDist (E : EmbArr) (P : ProtoArr) (i : S64x100.Idx) :
    val_main_v19 (F := Ideal) E P i = protoDist E P (i 0) (i 1) := by
  rw [val_main_v19_apply]
  have h0 : (val_main_cst_4 (F := Ideal)) (Shape.Idx.first h_S_) = 0 := Ideal.ofBits_zero_f32
  rw [h0, zero_add]
  unfold protoDist
  refine Finset.sum_congr rfl fun k _ => ?_
  rw [val_main_v18_apply, ref_minPool]
  rfl

end Cert.ProtoDist.Ref

end
-- ==== Proof.lean ====
/-
  The prototype-distance layer: a kernel that streams the sequence in two tiles per batch row against jnp.

  Both programs compute, for every batch row b, prototype p, prototype slot k and sequence position n, the distance
  √max(‖P[p,k]‖² + ‖E[b,n]‖² − 2 ⟨P[p,k], E[b,n]⟩, 0); its minimum over n; the sum over k of the minima's absolute
  values; and that sum's product with the transposed weight matrix. The kernel adds the two squared norms in the
  other order (addition of extended reals commutes), takes the inner products by one matrix product per tile where
  the reference contracts the whole arrays (the same sums), and takes the minimum over the 1024 positions as the
  minimum of the minima over the two tiles of 512 (a minimum may be taken in parts). The distance array leaves the
  kernel as [b, p, k, n] and is transposed on the host to the reference's [b, p, n, k]. No law used needs finite
  values, so the precondition is not opened. The ideal pass rewrote nothing, so `preserves` is trivial.
-/
import proofs.«103343_j53102975648266_1_alg».proof.Defs
import proofs.«103343_j53102975648266_1_alg».proof.Proof.Gen.Kernel
import proofs.«103343_j53102975648266_1_alg».proof.Proof.Gen.Kernel.Skeleton
import proofs.«103343_j53102975648266_1_alg».proof.Proof.Gen.Kernel.Launch
import proofs.«103343_j53102975648266_1_alg».proof.Proof.Gen.Kernel.Points
import proofs.«103343_j53102975648266_1_alg».proof.Proof.Gen.Kernel.Frame
import proofs.«103343_j53102975648266_1_alg».proof.Proof.Gen.KernelIdeal
import proofs.«103343_j53102975648266_1_alg».proof.Proof.Gen.KernelIdeal.Skeleton
import proofs.«103343_j53102975648266_1_alg».proof.Proof.Gen.KernelIdeal.Launch
import proofs.«103343_j53102975648266_1_alg».proof.Proof.Gen.KernelIdeal.Points
import proofs.«103343_j53102975648266_1_alg».proof.Proof.Gen.KernelIdeal.Frame
import proofs.«103343_j53102975648266_1_alg».proof.Proof.Gen.ReferenceIdeal
import proofs.«103343_j53102975648266_1_alg».proof.Proof.Gen.ReferenceIdeal.Run
import proofs.«103343_j53102975648266_1_alg».proof.Proof.Gen.ReferenceIdeal.Read
import proofs.«103343_j53102975648266_1_alg».proof.Proof.Gen.Pre_finite_inputs
import proofs.«103343_j53102975648266_1_alg».proof.Proof.KernelValue
import proofs.«103343_j53102975648266_1_alg».proof.Proof.RefValue
import Idealize.ShloMosaic.Adequacy
import Idealize.ShloMosaic.Init

noncomputable section

namespace Cert.Proof

open Idealize.ShloMosaic Idealize.SL.Sem Idealize.ShloMosaic.ValueIdx
open Cert.ProtoDist Cert.ProtoDist.KernelValue Cert.ProtoDist.Ref

/-- The reference's distance array is the kernel's, transposed in its last two axes. -/
theorem ref_dist_eq (E : EmbArr) (P : ProtoArr)
    (h : Cert.KernelIdeal.S64x100x4x1024.Transposes [0, 1, 3, 2] Cert.KernelIdeal.S64x100x1024x4) :
    Cert.ReferenceIdeal.Read.val_main_v16 (F := Ideal) E P = transpose Cert.KernelIdeal.S64x100x1024x4 [0, 1, 3, 2] (distArr E P) h := by
  funext i
  rw [ref_dist]
  exact (transpose_apply [0, 1, 3, 2] (distArr E P) h i (ix4 (i 0) (i 1) (i 3) (i 2)) (fun b => match b with
    | ⟨0, _⟩ => rfl
    | ⟨1, _⟩ => rfl
    | ⟨2, _⟩ => rfl
    | ⟨3, _⟩ => rfl)).symm

/-- The reference's prototype distances are the kernel's, without their unit axis. -/
theorem ref_protoDist_eq (E : EmbArr) (P : ProtoArr) (h : Cert.KernelIdeal.S64x100x1.ShapeCasts Cert.KernelIdeal.S64x100) :
    Cert.ReferenceIdeal.Read.val_main_v19 (F := Ideal) E P = shapeCast Cert.KernelIdeal.S64x100 (pdArr E P) h := by
  funext i
  rw [ref_protoDist]
  exact (shapeCast_apply (pdArr E P) h i (ix3 (i 0) (i 1) (0 : Fin 1)) (by
    rw [Shape.rowMajor_val_three, Shape.rowMajor_val_two]
    show ((i 0).val * 100 + (i 1).val) * 1 + 0 = (i 0).val * 100 + (i 1).val
    omega)).symm

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the three arguments the two programs end with the same three results: the
    reference's read index by index is the specification's arrays, which the kernel's run ends holding. -/
theorem algebraic : Cert.algebraic_KernelIdeal_ReferenceIdeal := by
  intro m ρ m' ρ' _ hagree
  refine ⟨_, _, _, Cert.ProtoDist.KernelValue.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1]
    exact ref_protoDist_eq (embArr m c) (protoArr m c) _
  · rw [(hagree c).1, (hagree c).2.1]
    exact ref_dist_eq (embArr m c) (protoArr m c) _
  · rw [(hagree c).1, (hagree c).2.1, (hagree c).2.2]
    show Host.dotGeneral (F := Ideal) (φ₁ := .f32) (φ₂ := .f32) Cert.ReferenceIdeal.dot_S64x100_S100x2_S64x2_1_0_0_1_n_n none
      (Cert.ReferenceIdeal.Read.val_main_v19 (F := Ideal) (embArr m c) (protoArr m c)) _ = _
    rw [ref_protoDist_eq (embArr m c) (protoArr m c) Cert.KernelIdeal.Facts₀.shapeCasts_S64x100x1_S64x100]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
